-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2x64 .f32) (main_arg6 : FVec F S2 .f32) (main_arg7 : FVec F S2x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S2x64 .f32 := Host.absf main_arg5
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S2x64 .f32 := Host.absf main_arg7
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S2x64 .f32) (main_arg6 : FVec F S2 .f32) (main_arg7 : FVec F S2x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S10000x64 : Shape := ⟨2, ![10000, 64]⟩
abbrev S64x2 : Shape := ⟨2, ![64, 2]⟩
abbrev S1x2 : Shape := ⟨2, ![1, 2]⟩
abbrev S100000x2 : Shape := ⟨2, ![100000, 2]⟩
abbrev S10000x2 : Shape := ⟨2, ![10000, 2]⟩

abbrev nBuf : Space → Nat
  | .hbm => 63
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S2x64, .f32⟩
  | .hbm, ⟨6, _⟩ => ⟨S2, .f32⟩
  | .hbm, ⟨7, _⟩ => ⟨S2x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S64x64, .f32⟩
  | .hbm, ⟨41, _⟩ => ⟨S64x64, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S64x2, .f32⟩
  | .hbm, ⟨60, _⟩ => ⟨S64x2, .f32⟩
  | .hbm, ⟨61, _⟩ => ⟨S1x2, .f32⟩
  | .hbm, ⟨62, _⟩ => ⟨S100000x2, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x2, .f32⟩
  | .local _ .vmem, ⟨14, _⟩ => ⟨S1x2, .f32⟩
  | .local _ .vmem, ⟨15, _⟩ => ⟨S64x2, .f32⟩
  | .local _ .vmem, ⟨16, _⟩ => ⟨S10000x2, .f32⟩
  | .local _ .vmem, ⟨17, _⟩ => ⟨S10000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  transposes_S2x64_S64x2_1_0 : S2x64.Transposes [1, 0] S64x2
  shapeCasts_S2_S1x2 : S2.ShapeCasts S1x2
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x2_S10000x2_1_0_0_1_n_n_wf : DotDims.WF S10000x64 S64x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x2.size a ≤ S64x2.size a
  hwx1_2 : ∀ i : grid1.Coords, EltTy.bits .f32 = 32 ∨ (Rect.block (s := S64x2) S64x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2.size a ≤ S1x2.size a
  hwx1_3 : ∀ i : grid1.Coords, EltTy.bits .f32 = 32 ∨ (Rect.block (s := S1x2) S1x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x2.size a ≤ S64x2.size a
  hwx1_4 : ∀ i : grid1.Coords, EltTy.bits .f32 = 32 ∨ (Rect.block (s := S64x2) S64x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x2.size a ≤ S100000x2.size a
  hwx1_5 : ∀ i : grid1.Coords, EltTy.bits .f32 = 32 ∨ (Rect.block (s := S100000x2) S10000x2.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

abbrev win0_0 : Pipeline.Window sig grid0 :=
  Pipeline.Window.ofSpec (Memref.whole main_v24) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S64x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S10000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S64x2 : Shape := ⟨2, ![64, 2]⟩
abbrev S100000x2 : Shape := ⟨2, ![100000, 2]⟩
abbrev S1x2 : Shape := ⟨2, ![1, 2]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S2x64, .f32⟩
  | .hbm, ⟨6, _⟩ => ⟨S2, .f32⟩
  | .hbm, ⟨7, _⟩ => ⟨S2x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x2, .f32⟩
  | .hbm, ⟨74, _⟩ => ⟨S100000x2, .f32⟩
  | .hbm, ⟨75, _⟩ => ⟨S1x2, .f32⟩
  | .hbm, ⟨76, _⟩ => ⟨S100000x2, .f32⟩
  | .hbm, ⟨77, _⟩ => ⟨S100000x2, .f32⟩
  | .hbm, ⟨78, _⟩ => ⟨S64x2, .f32⟩
  | .hbm, ⟨79, _⟩ => ⟨S100000x2, .f32⟩
  | .hbm, ⟨80, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.LibDotRows.lean ====
import Idealize.ShloMosaic.PureOps.Ideal.Laws
import Idealize.ShloMosaic.Lib.ValueIdx

/-!
# A rows-by-columns contraction read at an index

For a product of an `R × K` array with a `K × J` array (one contracted axis, no batch axis: the left operand's
axis 1 against the right operand's axis 0) the sum over the contraction index at output position `(p, j)` is the
plain sum over `k : Fin K` of `a (p, k) * b (k, j)`. Stated once for every extent, and then for the two
operations that are this sum over the extended reals: a matrix product accumulated into the zero splat, and a
`dot_general`.
-/

noncomputable section

namespace Cert.Lib.DotRows

open Idealize.ShloMosaic Idealize.ShloMosaic.ValueIdx

variable {R K J : ℕ}

/-- The contraction index of a rows-by-columns product is the one coordinate `k`: the left operand is read at
    `(p, k)`, the right at `(k, j)`. -/
theorem contr_sum (d : DotDims ⟨2, ![R, K]⟩ ⟨2, ![K, J]⟩ ⟨2, ![R, J]⟩)
    (h1 : d.lhsContracting = [1]) (h2 : d.rhsContracting = [0]) (h3 : d.lhsNonContracting = [0])
    (h4 : d.rhsNonContracting = [1]) (h5 : d.lhsBatch = []) (h6 : d.rhsBatch = [])
    (a : (⟨2, ![R, K]⟩ : Shape).Idx → EReal) (b : (⟨2, ![K, J]⟩ : Shape).Idx → EReal) (p : Fin R) (j : Fin J) :
    ∑ q : d.contr.Idx, a (d.lhsIdx (ix2 p j) q) * b (d.rhsIdx (ix2 p j) q) = ∑ k : Fin K, a (ix2 p k) * b (ix2 k j) := by
  obtain ⟨lc, rc, ln, rn, lb, rb, wf⟩ := d
  dsimp only at h1 h2 h3 h4 h5 h6
  subst h1 h2 h3 h4 h5 h6
  rw [← Equiv.sum_comp (contrEquiv1 _ K rfl rfl).symm]
  refine Finset.sum_congr rfl fun k _ => ?_
  have hk := contrEquiv1_symm_val (⟨[1], [0], [0], [1], [], [], wf⟩ : DotDims ⟨2, ![R, K]⟩ ⟨2, ![K, J]⟩ ⟨2, ![R, J]⟩) K rfl rfl k
  have el : (⟨[1], [0], [0], [1], [], [], wf⟩ : DotDims ⟨2, ![R, K]⟩ ⟨2, ![K, J]⟩ ⟨2, ![R, J]⟩).lhsIdx (ix2 p j)
      ((contrEquiv1 _ K rfl rfl).symm k) = ix2 p k := funext fun x => Fin.ext (by
    match x with
    | ⟨0, _⟩ => rfl
    | ⟨1, _⟩ => exact (rfl : _ = _).trans hk)
  have er : (⟨[1], [0], [0], [1], [], [], wf⟩ : DotDims ⟨2, ![R, K]⟩ ⟨2, ![K, J]⟩ ⟨2, ![R, J]⟩).rhsIdx (ix2 p j)
      ((contrEquiv1 _ K rfl rfl).symm k) = ix2 k j := funext fun x => Fin.ext (by
    match x with
    | ⟨0, _⟩ => exact (rfl : _ = _).trans hk
    | ⟨1, _⟩ => rfl)
  rw [el, er]

/-- A matrix product into the zero accumulator, over the extended reals, at `(p, j)`: the sum over `k`. -/
theorem matmul_rows {φ₁ φ₂ : FTy} (d : DotDims ⟨2, ![R, K]⟩ ⟨2, ![K, J]⟩ ⟨2, ![R, J]⟩)
    (h1 : d.lhsContracting = [1]) (h2 : d.rhsContracting = [0]) (h3 : d.lhsNonContracting = [0])
    (h4 : d.rhsNonContracting = [1]) (h5 : d.lhsBatch = []) (h6 : d.rhsBatch = []) (prec : Option ContractPrecision)
    (a : FVec Ideal ⟨2, ![R, K]⟩ φ₁) (b : FVec Ideal ⟨2, ![K, J]⟩ φ₂) (p : Fin R) (j : Fin J) :
    FloatOps.matmul d prec a b (constant ⟨2, ![R, J]⟩ .f32 0x00000000#32) (ix2 p j) = ∑ k : Fin K, a (ix2 p k) * b (ix2 k j) :=
  (Ideal.matmul_constant_zero_apply d prec a b (ix2 p j)).trans (contr_sum d h1 h2 h3 h4 h5 h6 a b p j)

/-- A `dot_general` of the same dimension numbers, over the extended reals, at `(p, j)`: the same sum. -/
theorem dotGeneral_rows {φ₁ φ₂ : FTy} (d : DotDims ⟨2, ![R, K]⟩ ⟨2, ![K, J]⟩ ⟨2, ![R, J]⟩)
    (h1 : d.lhsContracting = [1]) (h2 : d.rhsContracting = [0]) (h3 : d.lhsNonContracting = [0])
    (h4 : d.rhsNonContracting = [1]) (h5 : d.lhsBatch = []) (h6 : d.rhsBatch = []) (prec : Option ContractPrecision)
    (sched : HostSchedule) (a : FVec Ideal ⟨2, ![R, K]⟩ φ₁) (b : FVec Ideal ⟨2, ![K, J]⟩ φ₂) (p : Fin R) (j : Fin J) :
    FloatOps.dotGeneral d prec sched a b (ix2 p j) = ∑ k : Fin K, a (ix2 p k) * b (ix2 k j) :=
  (Ideal.dotGeneral_apply d prec sched a b (ix2 p j)).trans (contr_sum d h1 h2 h3 h4 h5 h6 a b p j)

end Cert.Lib.DotRows

end
-- ==== Proof.Payload.lean ====
/-
  What each kernel body computes, read at one entry of its output block.

  Both bodies take a block of 10000 rows of the mean and of the features, the two weight matrices whole (64 rows
  each, already transposed) and the bias as a one-row matrix. At row `r` and output column `j` the result is
  `Σ k, mean (r, k) * wl (k, j)  +  bias (0, j)  +  Σ k, feat (r, k) * wr (k, j)`: a change of float format is the
  identity on the extended reals, a matrix product into a zero accumulator is its sum, and the one-row bias is read
  at its only row. The first body clamps the result below at 0.
-/
import proofs.«134003_j17532056502368_1_alg».proof.Proof.Gen.KernelIdeal.Skeleton
import proofs.«134003_j17532056502368_1_alg».proof.Proof.LibDotRows
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- The first body's stored value at row `r`, column `j` of the block. -/
theorem pay0_apply (a x : Vec Ideal S10000x64 .f32) (wl wr : Vec Ideal S64x64 .f32) (b : Vec Ideal S1x64 .f32)
    (r : Fin 10000) (j : Fin 64) :
    k0_pay1 (F := Ideal) a x wl wr b (ix2 r j)
      = max ((∑ k : Fin 64, a (ix2 r k) * wl (ix2 k j)) + b (ix2 (0 : Fin 1) j) + ∑ k : Fin 64, x (ix2 r k) * wr (ix2 k j)) 0 := by
  unfold k0_pay1
  simp only [shapeCast_self]
  rw [maximumf_apply, addf_apply, addf_apply, broadcast_apply, broadcastTo_1b_ab_apply]
  simp only [matmul]
  rw [Cert.Lib.DotRows.matmul_rows _ rfl rfl rfl rfl rfl rfl, Cert.Lib.DotRows.matmul_rows _ rfl rfl rfl rfl rfl rfl]
  simp only [truncf_apply]
  exact congrArg _ Ideal.ofBits_zero_f32

/-- The second body's stored value at row `r`, column `j` of the block. -/
theorem pay1_apply (a x : Vec Ideal S10000x64 .f32) (wl wr : Vec Ideal S64x2 .f32) (b : Vec Ideal S1x2 .f32)
    (r : Fin 10000) (j : Fin 2) :
    k1_pay1 (F := Ideal) a x wl wr b (ix2 r j)
      = (∑ k : Fin 64, a (ix2 r k) * wl (ix2 k j)) + b (ix2 (0 : Fin 1) j) + ∑ k : Fin 64, x (ix2 r k) * wr (ix2 k j) := by
  unfold k1_pay1
  simp only [shapeCast_self]
  rw [addf_apply, addf_apply, broadcastTo_1b_ab_apply]
  simp only [matmul]
  rw [Cert.Lib.DotRows.matmul_rows _ rfl rfl rfl rfl rfl rfl, Cert.Lib.DotRows.matmul_rows _ rfl rfl rfl rfl rfl rfl]
  simp only [truncf_apply]

end Cert.KernelIdeal.Body

end
-- ==== Proof.Spec.lean ====
/-
  Two rounds of mean aggregation over a graph's edges, each followed by an affine map, as functions of the
  input arrays.

  An edge list `ei` of shape [2, E] gives each edge a source (row 0; a negative entry counts from the end) and a
  target (row 1). For node features `h` of shape [N, 64], `aggr h ei` adds to each target node the feature row of
  the edge's source, and `degMax ei` is the number of edges arriving at a node, or 1 if none does. The mean over a
  node's incoming edges is the aggregate divided by that count (`meanDiv`), which is also the aggregate multiplied
  by the count's reciprocal (`meanMul`): on the extended reals `x * (1 / y) = x / y` for every `x` as soon as
  `y ≠ 0`, and a maximum with 1 is never 0 (`meanMul_eq_meanDiv`); no finiteness is asked of anything.

  A layer maps the mean `A` and the features `X` to `A · Wl + b + X · Wr` (the weights already transposed, the
  bias a one-row matrix laid along every row); the first layer clamps the result below at 0. Read at row `p` and
  column `j` a layer is two sums over the 64 features (`layer1_apply`, `layer2_apply`).
-/
import proofs.«134003_j17532056502368_1_alg».proof.Proof.Gen.ReferenceIdeal
import proofs.«134003_j17532056502368_1_alg».proof.Proof.LibDotRows
import Idealize.ShloMosaic.PureOps.Ideal.Laws
import Idealize.ShloMosaic.Lib.ValueIdx
import Idealize.ShloMosaic.Lib.IdealHost
import Idealize.ShloMosaic.Lib.KernelVsHost
import Idealize.ShloMosaic.Lib.Pipeline.Value

noncomputable section

namespace Cert.Sage

open Cert.ReferenceIdeal Cert.ReferenceIdeal.Gen Idealize.ShloMosaic Idealize.ShloMosaic.ValueIdx

variable {F : FTy → Type} [FloatOps F]

/-- An array of shape `s` and element type `e`. -/
abbrev Arr (F : FTy → Type) (s : Shape) (e : EltTy) : Type := (⟨s, e⟩ : BufTy).Contents (Elt F)

/-! ## The edge list -/

/-- Each edge's target node, as a column. -/
def dstCol (ei : Arr F S2x1600000 .i32) : Arr F S1600000x1 .i32 :=
  broadcastInDim S1600000x1 ![0] bcast_S1600000_S1600000x1_0 (shapeCast _ (extractStridedSlice S1x1600000 ![1, 0] ei slices_S2x1600000_S1x1600000_1_0) shapeCasts_S1x1600000_S1600000)

/-- Each edge's source node, as a column; a negative entry `s` stands for `s + N`. -/
def srcCol (ei : Arr F S2x1600000 .i32) : Arr F S1600000x1 .i32 :=
  broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))

/-- The [N, 64] array of zeros the aggregation starts from, and the clamp's lower bound. -/
def zeros64 : Arr F S100000x64 .f32 :=
  broadcastInDim S100000x64 ![] bcast_S_S100000x64 (constant S_ .f32 0x00000000#32)

/-- One per node. -/
def onesN : Arr F S100000 .f32 :=
  broadcastInDim S100000 ![] bcast_S_S100000 (constant S_ .f32 0x3F800000#32)

/-- Each target node receives the sum of its incoming edges' source rows of `h`. -/
def aggr (h : Arr F S100000x64 .f32) (ei : Arr F S2x1600000 .i32) : Arr F S100000x64 .f32 :=
  Host.scatterAdd scatter_S100000x64_S1600000x1_S1600000x64_1_0_0_1 zeros64 (dstCol ei) (Host.gather gather_S100000x64_S1600000x1_S1600000x64_1_0_n_n_0_1_164 h (srcCol ei))

/-- The number of edges arriving at each node, at least 1. -/
def degMax (ei : Arr F S2x1600000 .i32) : Arr F S100000 .f32 :=
  maximumf (Host.scatterAdd scatter_S100000_S1600000x1_S1600000_n_0_0_1 (broadcastInDim S100000 ![] bcast_S_S100000 (constant S_ .f32 0x00000000#32)) (dstCol ei) (broadcastInDim S1600000 ![] bcast_S_S1600000 (constant S_ .f32 0x3F800000#32))) onesN

/-- A per-node value laid along the node's 64 features. -/
def spread (v : Arr F S100000 .f32) : Arr F S100000x64 .f32 :=
  broadcastInDim S100000x64 ![0, 1] bcast_S100000x1_S100000x64_0_1 (broadcastInDim S100000x1 ![0] bcast_S100000_S100000x1_0 v)

/-- The mean of the incoming source rows: the aggregate divided by the count. -/
def meanDiv (h : Arr F S100000x64 .f32) (ei : Arr F S2x1600000 .i32) : Arr F S100000x64 .f32 :=
  Host.divf (aggr h ei) (spread (degMax ei))

/-- The same mean as the aggregate times the count's reciprocal. -/
def meanMul (h : Arr F S100000x64 .f32) (ei : Arr F S2x1600000 .i32) : Arr F S100000x64 .f32 :=
  mulf (aggr h ei) (spread (Host.divf onesN (degMax ei)))

/-! ## The layers -/

/-- The first layer: `max (A · Wl + b + X · Wr) 0`. -/
def layer1 (A X : Arr F S100000x64 .f32) (WlT : Arr F S64x64 .f32) (b2d : Arr F S1x64 .f32) (WrT : Arr F S64x64 .f32) : Arr F S100000x64 .f32 :=
  maximumf (addf (addf (Host.dotGeneral dot_S100000x64_S64x64_S100000x64_1_0_0_1_n_n none A WlT) (broadcastInDim S100000x64 ![0, 1] bcast_S1x64_S100000x64_0_1 b2d)) (Host.dotGeneral dot_S100000x64_S64x64_S100000x64_1_0_0_1_n_n none X WrT)) zeros64

/-- The second layer: `A · Wl + b + X · Wr`, two output features. -/
def layer2 (A X : Arr F S100000x64 .f32) (WlT : Arr F S64x2 .f32) (b2d : Arr F S1x2 .f32) (WrT : Arr F S64x2 .f32) : Arr F S100000x2 .f32 :=
  addf (addf (Host.dotGeneral dot_S100000x64_S64x2_S100000x2_1_0_0_1_n_n none A WlT) (broadcastInDim S100000x2 ![0, 1] bcast_S1x2_S100000x2_0_1 b2d)) (Host.dotGeneral dot_S100000x64_S64x2_S100000x2_1_0_0_1_n_n none X WrT)

/-- The hidden features: the first layer of the mean of `x` and of `x` itself. -/
def hidden (x : Arr F S100000x64 .f32) (ei : Arr F S2x1600000 .i32) (W1l : Arr F S64x64 .f32) (b1l : Arr F S64 .f32) (W1r : Arr F S64x64 .f32) : Arr F S100000x64 .f32 :=
  layer1 (meanDiv x ei) x (transpose S64x64 [1, 0] W1l transposes_S64x64_S64x64_1_0) (broadcastInDim S1x64 ![1] bcast_S64_S1x64_1 b1l) (transpose S64x64 [1, 0] W1r transposes_S64x64_S64x64_1_0)

/-- The result: the second layer of the mean of the hidden features and of the hidden features themselves. -/
def result (x : Arr F S100000x64 .f32) (ei : Arr F S2x1600000 .i32) (W1l : Arr F S64x64 .f32) (b1l : Arr F S64 .f32) (W1r : Arr F S64x64 .f32)
    (W2l : Arr F S2x64 .f32) (b2l : Arr F S2 .f32) (W2r : Arr F S2x64 .f32) : Arr F S100000x2 .f32 :=
  layer2 (meanDiv (hidden x ei W1l b1l W1r) ei) (hidden x ei W1l b1l W1r) (transpose S64x2 [1, 0] W2l transposes_S2x64_S64x2_1_0) (broadcastInDim S1x2 ![1] bcast_S2_S1x2_1 b2l) (transpose S64x2 [1, 0] W2r transposes_S2x64_S64x2_1_0)

/-! ## The mean, either way -/

/-- A per-node value laid along the features reads, at node `p` and any feature, the node's value. -/
theorem spread_apply (v : Arr Ideal S100000 .f32) (p : Fin 100000) (q : Fin 64) :
    spread (F := Ideal) v (ix2 p q) = v (ix1 p) := by
  unfold spread
  refine (broadcastInDim_apply ![0, 1] bcast_S100000x1_S100000x64_0_1 _ (ix2 p q) (ix2 p (0 : Fin 1)) fun a => ?_).trans
    (broadcastInDim_apply ![0] bcast_S100000_S100000x1_0 v (ix2 p (0 : Fin 1)) (ix1 p) fun a => ?_)
  · match a with
    | ⟨0, _⟩ => rfl
    | ⟨1, _⟩ => rfl
  · match a with
    | ⟨0, _⟩ => rfl

/-- One per node is 1 at every node. -/
theorem onesN_apply (i : S100000.Idx) : onesN (F := Ideal) i = 1 := by
  unfold onesN
  rw [broadcastInDim_scalar_apply]
  exact Ideal.ofBits_one_f32

/-- Multiplying by the reciprocal of a count that is at least 1 is dividing by the count, for every extended
    real in the numerator: the count is not 0. -/
theorem mul_recip_max (a : FVec Ideal S100000x64 .f32) (c : FVec Ideal S100000 .f32) :
    mulf (F := Ideal) a (spread (F := Ideal) (Host.divf (F := Ideal) (onesN (F := Ideal)) (maximumf (F := Ideal) c (onesN (F := Ideal)))))
      = Host.divf (F := Ideal) a (spread (F := Ideal) (maximumf (F := Ideal) c (onesN (F := Ideal)))) := by
  funext i
  obtain ⟨p, q, rfl⟩ : ∃ (p : Fin 100000) (q : Fin 64), i = ix2 p q := ⟨i 0, i 1, eq_ix2 i⟩
  show a (ix2 p q) * spread (F := Ideal) _ (ix2 p q) = Ideal.div (a (ix2 p q)) (spread (F := Ideal) _ (ix2 p q))
  rw [spread_apply, spread_apply]
  show a (ix2 p q) * Ideal.div (onesN (F := Ideal) (ix1 p)) (max (c (ix1 p)) (onesN (F := Ideal) (ix1 p)))
    = Ideal.div (a (ix2 p q)) (max (c (ix1 p)) (onesN (F := Ideal) (ix1 p)))
  rw [onesN_apply]
  exact Ideal.mul_one_div (ne_of_gt (lt_of_lt_of_le zero_lt_one (le_max_right _ _)))

theorem meanMul_eq_meanDiv (h : Arr Ideal S100000x64 .f32) (ei : Arr Ideal S2x1600000 .i32) :
    meanMul (F := Ideal) h ei = meanDiv h ei := by
  unfold meanMul meanDiv degMax
  exact mul_recip_max _ _

/-! ## The layers at an index -/

theorem zeros64_apply (i : S100000x64.Idx) : zeros64 (F := Ideal) i = 0 := by
  unfold zeros64
  rw [broadcastInDim_scalar_apply]
  exact Ideal.ofBits_zero_f32

/-- The first layer at node `p` and output feature `j`. -/
theorem layer1_apply (A X : Arr Ideal S100000x64 .f32) (WlT : Arr Ideal S64x64 .f32) (b2d : Arr Ideal S1x64 .f32) (WrT : Arr Ideal S64x64 .f32)
    (p : Fin 100000) (j : Fin 64) :
    layer1 (F := Ideal) A X WlT b2d WrT (ix2 p j)
      = max ((∑ k : Fin 64, A (ix2 p k) * WlT (ix2 k j)) + b2d (ix2 (0 : Fin 1) j) + ∑ k : Fin 64, X (ix2 p k) * WrT (ix2 k j)) 0 := by
  unfold layer1
  rw [maximumf_apply, addf_apply, addf_apply, zeros64_apply, broadcastInDim_oneRow_apply]
  simp only [Host.dotGeneral]
  rw [Cert.Lib.DotRows.dotGeneral_rows _ rfl rfl rfl rfl rfl rfl, Cert.Lib.DotRows.dotGeneral_rows _ rfl rfl rfl rfl rfl rfl]

/-- The second layer at node `p` and output feature `j`. -/
theorem layer2_apply (A X : Arr Ideal S100000x64 .f32) (WlT : Arr Ideal S64x2 .f32) (b2d : Arr Ideal S1x2 .f32) (WrT : Arr Ideal S64x2 .f32)
    (p : Fin 100000) (j : Fin 2) :
    layer2 (F := Ideal) A X WlT b2d WrT (ix2 p j)
      = (∑ k : Fin 64, A (ix2 p k) * WlT (ix2 k j)) + b2d (ix2 (0 : Fin 1) j) + ∑ k : Fin 64, X (ix2 p k) * WrT (ix2 k j) := by
  unfold layer2
  rw [addf_apply, addf_apply, broadcastInDim_oneRow_apply]
  simp only [Host.dotGeneral]
  rw [Cert.Lib.DotRows.dotGeneral_rows _ rfl rfl rfl rfl rfl rfl, Cert.Lib.DotRows.dotGeneral_rows _ rfl rfl rfl rfl rfl rfl]

end Cert.Sage

end
-- ==== Proof.Region0.lean ====
/-
  The array region 0 leaves behind, as one function of the arrays it finds.

  The region walks ten blocks of 10000 rows. At block `t` the body reads rows `10000 t … 10000 t + 9999` of the
  mean and of the features, and the weights and the bias whole; it writes the same rows of the output. So entry
  `(10000 t + r, j)` of the output is the body's value at `(r, j)` of the block, which is the layer's value at that
  entry of the whole arrays: the sums over the 64 features read the same entries either way. Every row lies in
  block `row / 10000`, so the blocks cover the array.
-/
import proofs.«134003_j17532056502368_1_alg».proof.Proof.Gen.KernelIdeal.Frame
import proofs.«134003_j17532056502368_1_alg».proof.Proof.Payload
import proofs.«134003_j17532056502368_1_alg».proof.Proof.Spec

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the row blocks move with the point, the weights and the bias
    stay put. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The whole-array function: the layer of the arrays the region finds. -/
abbrev G (c : Dev nD) : Vec Ideal S100000x64 .f32 :=
  Cert.Sage.layer1 (F := Ideal) (V c main_v24) (V c main_arg0) (V c main_v25) (V c main_v27) (V c main_v26)

/-- Row `r` of block `t` is row `10000 t + r` of the array. -/
def row (t : Fin cfg0.N) (r : Fin 10000) : Fin 100000 := ⟨t.val * 10000 + r.val, by have := t.isLt; have : t.val < 10 := this; omega⟩

theorem rd0 (c : Dev nD) (t : Fin cfg0.N) (r : Fin 10000) (k : Fin 64) :
    iblk0 V c 0 t (ix2 r k) = V c main_v24 (ix2 (row t r) k) := by
  obtain ⟨e0, e1, -⟩ := idx_facts t
  show V c main_v24 (((cfg0.win 0).blk t).view.emb (ix2 r k)) = V c main_v24 (ix2 (row t r) k)
  refine congrArg (V c main_v24) (funext fun a => Fin.ext ?_)
  match a with
  | ⟨0, _⟩ => show win0_0.index t (0 : Fin 2) * 10000 + 1 * r.val = t.val * 10000 + r.val; omega
  | ⟨1, _⟩ => show win0_0.index t (1 : Fin 2) * 64 + 1 * k.val = k.val; omega

theorem rd1 (c : Dev nD) (t : Fin cfg0.N) (r : Fin 10000) (k : Fin 64) :
    iblk0 V c 1 t (ix2 r k) = V c main_arg0 (ix2 (row t r) k) := by
  obtain ⟨-, -, e0, e1, -⟩ := idx_facts t
  show V c main_arg0 (((cfg0.win 1).blk t).view.emb (ix2 r k)) = V c main_arg0 (ix2 (row t r) k)
  refine congrArg (V c main_arg0) (funext fun a => Fin.ext ?_)
  match a with
  | ⟨0, _⟩ => show win0_1.index t (0 : Fin 2) * 10000 + 1 * r.val = t.val * 10000 + r.val; omega
  | ⟨1, _⟩ => show win0_1.index t (1 : Fin 2) * 64 + 1 * k.val = k.val; omega

theorem rd2 (c : Dev nD) (t : Fin cfg0.N) (k : Fin 64) (j : Fin 64) :
    iblk0 V c 2 t (ix2 k j) = V c main_v25 (ix2 k j) := by
  obtain ⟨-, -, -, -, e0, e1, -⟩ := idx_facts t
  show V c main_v25 (((cfg0.win 2).blk t).view.emb (ix2 k j)) = V c main_v25 (ix2 k j)
  refine congrArg (V c main_v25) (funext fun a => Fin.ext ?_)
  match a with
  | ⟨0, _⟩ => show win0_2.index t (0 : Fin 2) * 64 + 1 * k.val = k.val; omega
  | ⟨1, _⟩ => show win0_2.index t (1 : Fin 2) * 64 + 1 * j.val = j.val; omega

theorem rd3 (c : Dev nD) (t : Fin cfg0.N) (u : Fin 1) (j : Fin 64) :
    iblk0 V c 3 t (ix2 u j) = V c main_v27 (ix2 u j) := by
  obtain ⟨-, -, -, -, -, -, e0, e1, -⟩ := idx_facts t
  show V c main_v27 (((cfg0.win 3).blk t).view.emb (ix2 u j)) = V c main_v27 (ix2 u j)
  refine congrArg (V c main_v27) (funext fun a => Fin.ext ?_)
  match a with
  | ⟨0, _⟩ => show win0_3.index t (0 : Fin 2) * 1 + 1 * u.val = u.val; omega
  | ⟨1, _⟩ => show win0_3.index t (1 : Fin 2) * 64 + 1 * j.val = j.val; omega

theorem rd4 (c : Dev nD) (t : Fin cfg0.N) (k : Fin 64) (j : Fin 64) :
    iblk0 V c 4 t (ix2 k j) = V c main_v26 (ix2 k j) := by
  obtain ⟨-, -, -, -, -, -, -, -, e0, e1, -⟩ := idx_facts t
  show V c main_v26 (((cfg0.win 4).blk t).view.emb (ix2 k j)) = V c main_v26 (ix2 k j)
  refine congrArg (V c main_v26) (funext fun a => Fin.ext ?_)
  match a with
  | ⟨0, _⟩ => show win0_4.index t (0 : Fin 2) * 64 + 1 * k.val = k.val; omega
  | ⟨1, _⟩ => show win0_4.index t (1 : Fin 2) * 64 + 1 * j.val = j.val; omega

/-- Entry `(r, j)` of the output's block `t` is entry `(10000 t + r, j)` of the array. -/
theorem emb5 (t : Fin cfg0.N) (r : Fin 10000) (j : Fin 64) :
    ((cfg0.win 5).blk t).view.emb (ix2 r j) = ix2 (row t r) j := by
  obtain ⟨-, -, -, -, -, -, -, -, -, -, e0, e1⟩ := idx_facts t
  refine funext fun a => Fin.ext ?_
  match a with
  | ⟨0, _⟩ => show win0_5.index t (0 : Fin 2) * 10000 + 1 * r.val = t.val * 10000 + r.val; omega
  | ⟨1, _⟩ => show win0_5.index t (1 : Fin 2) * 64 + 1 * j.val = j.val; omega

/-- What point `t` writes back is block `t` of the layer of the arrays the region finds. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  funext y
  obtain ⟨r, j, rfl⟩ : ∃ (r : Fin 10000) (j : Fin 64), y = ix2 r j := ⟨y 0, y 1, eq_ix2 y⟩
  refine (Cert.KernelIdeal.Body.pay0_apply (iblk0 V c 0 t) (iblk0 V c 1 t) (iblk0 V c 2 t) (iblk0 V c 4 t) (iblk0 V c 3 t) r j).trans ?_
  rw [View.read_apply, emb5]
  refine Eq.trans ?_ (Cert.Sage.layer1_apply (V c main_v24) (V c main_arg0) (V c main_v25) (V c main_v27) (V c main_v26) (row t r) j).symm
  simp only [rd0 V c t r, rd1 V c t r, rd2 V c t, rd3 V c t, rd4 V c t]

/-- An index of the array is in point `t`'s block iff each coordinate is in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v28).slice (win0_5.rect t)).set ↔ _
  rw [View.set_slice_whole, Rect.mem_set_unit]
  exact Iff.rfl

/-- Every entry of the array is in the block of its row's ten-thousand. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  refine ⟨⟨(i 0).val / 10000, by show (i 0).val / 10000 < 10; omega⟩, flush0_5 _, ?_⟩
  rw [mem_blk]
  obtain ⟨-, -, -, -, -, -, -, -, -, -, e0, e1⟩ := idx_facts ⟨(i 0).val / 10000, by show (i 0).val / 10000 < 10; omega⟩
  have e0' : win0_5.index ⟨(i 0).val / 10000, by show (i 0).val / 10000 < 10; omega⟩ (0 : Fin 2) = (i 0).val / 10000 := e0
  intro a
  match a with
  | ⟨0, _⟩ => show win0_5.index _ (0 : Fin 2) * 10000 ≤ (i 0).val ∧ (i 0).val < win0_5.index _ (0 : Fin 2) * 10000 + 10000; omega
  | ⟨1, _⟩ => show win0_5.index _ (1 : Fin 2) * 64 ≤ (i 1).val ∧ (i 1).val < win0_5.index _ (1 : Fin 2) * 64 + 64; omega

/-- The region's output array after its run is the layer of the arrays it was entered with. -/
theorem value (c : Dev nD) : (dat0 V c).arrAt 5 cfg0.N = G V c :=
  (dat0 V c).arrAt_eq_of_cover 5 (G V c) (fun t _ => flushed_eq V c t) (cover)

end Cert.KernelIdeal.Region0

end
-- ==== Proof.Region1.lean ====
/-
  The array region 1 leaves behind, as one function of the arrays it finds.

  The region walks ten blocks of 10000 rows. At block `t` the body reads rows `10000 t … 10000 t + 9999` of the
  mean and of the features, and the weights and the bias whole; it writes the same rows of the output. So entry
  `(10000 t + r, j)` of the output is the body's value at `(r, j)` of the block, which is the layer's value at that
  entry of the whole arrays: the sums over the 64 features read the same entries either way. Every row lies in
  block `row / 10000`, so the blocks cover the array.
-/
import proofs.«134003_j17532056502368_1_alg».proof.Proof.Gen.KernelIdeal.Frame
import proofs.«134003_j17532056502368_1_alg».proof.Proof.Payload
import proofs.«134003_j17532056502368_1_alg».proof.Proof.Spec

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the row blocks move with the point, the weights and the bias
    stay put. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The whole-array function: the layer of the arrays the region finds. -/
abbrev G (c : Dev nD) : Vec Ideal S100000x2 .f32 :=
  Cert.Sage.layer2 (F := Ideal) (V c main_v40) (V c main_v28) (V c main_v41) (V c main_v43) (V c main_v42)

/-- Row `r` of block `t` is row `10000 t + r` of the array. -/
def row (t : Fin cfg1.N) (r : Fin 10000) : Fin 100000 := ⟨t.val * 10000 + r.val, by have := t.isLt; have : t.val < 10 := this; omega⟩

theorem rd0 (c : Dev nD) (t : Fin cfg1.N) (r : Fin 10000) (k : Fin 64) :
    iblk1 V c 0 t (ix2 r k) = V c main_v40 (ix2 (row t r) k) := by
  obtain ⟨e0, e1, -⟩ := idx_facts t
  show V c main_v40 (((cfg1.win 0).blk t).view.emb (ix2 r k)) = V c main_v40 (ix2 (row t r) k)
  refine congrArg (V c main_v40) (funext fun a => Fin.ext ?_)
  match a with
  | ⟨0, _⟩ => show win1_0.index t (0 : Fin 2) * 10000 + 1 * r.val = t.val * 10000 + r.val; omega
  | ⟨1, _⟩ => show win1_0.index t (1 : Fin 2) * 64 + 1 * k.val = k.val; omega

theorem rd1 (c : Dev nD) (t : Fin cfg1.N) (r : Fin 10000) (k : Fin 64) :
    iblk1 V c 1 t (ix2 r k) = V c main_v28 (ix2 (row t r) k) := by
  obtain ⟨-, -, e0, e1, -⟩ := idx_facts t
  show V c main_v28 (((cfg1.win 1).blk t).view.emb (ix2 r k)) = V c main_v28 (ix2 (row t r) k)
  refine congrArg (V c main_v28) (funext fun a => Fin.ext ?_)
  match a with
  | ⟨0, _⟩ => show win1_1.index t (0 : Fin 2) * 10000 + 1 * r.val = t.val * 10000 + r.val; omega
  | ⟨1, _⟩ => show win1_1.index t (1 : Fin 2) * 64 + 1 * k.val = k.val; omega

theorem rd2 (c : Dev nD) (t : Fin cfg1.N) (k : Fin 64) (j : Fin 2) :
    iblk1 V c 2 t (ix2 k j) = V c main_v41 (ix2 k j) := by
  obtain ⟨-, -, -, -, e0, e1, -⟩ := idx_facts t
  show V c main_v41 (((cfg1.win 2).blk t).view.emb (ix2 k j)) = V c main_v41 (ix2 k j)
  refine congrArg (V c main_v41) (funext fun a => Fin.ext ?_)
  match a with
  | ⟨0, _⟩ => show win1_2.index t (0 : Fin 2) * 64 + 1 * k.val = k.val; omega
  | ⟨1, _⟩ => show win1_2.index t (1 : Fin 2) * 2 + 1 * j.val = j.val; omega

theorem rd3 (c : Dev nD) (t : Fin cfg1.N) (u : Fin 1) (j : Fin 2) :
    iblk1 V c 3 t (ix2 u j) = V c main_v43 (ix2 u j) := by
  obtain ⟨-, -, -, -, -, -, e0, e1, -⟩ := idx_facts t
  show V c main_v43 (((cfg1.win 3).blk t).view.emb (ix2 u j)) = V c main_v43 (ix2 u j)
  refine congrArg (V c main_v43) (funext fun a => Fin.ext ?_)
  match a with
  | ⟨0, _⟩ => show win1_3.index t (0 : Fin 2) * 1 + 1 * u.val = u.val; omega
  | ⟨1, _⟩ => show win1_3.index t (1 : Fin 2) * 2 + 1 * j.val = j.val; omega

theorem rd4 (c : Dev nD) (t : Fin cfg1.N) (k : Fin 64) (j : Fin 2) :
    iblk1 V c 4 t (ix2 k j) = V c main_v42 (ix2 k j) := by
  obtain ⟨-, -, -, -, -, -, -, -, e0, e1, -⟩ := idx_facts t
  show V c main_v42 (((cfg1.win 4).blk t).view.emb (ix2 k j)) = V c main_v42 (ix2 k j)
  refine congrArg (V c main_v42) (funext fun a => Fin.ext ?_)
  match a with
  | ⟨0, _⟩ => show win1_4.index t (0 : Fin 2) * 64 + 1 * k.val = k.val; omega
  | ⟨1, _⟩ => show win1_4.index t (1 : Fin 2) * 2 + 1 * j.val = j.val; omega

/-- Entry `(r, j)` of the output's block `t` is entry `(10000 t + r, j)` of the array. -/
theorem emb5 (t : Fin cfg1.N) (r : Fin 10000) (j : Fin 2) :
    ((cfg1.win 5).blk t).view.emb (ix2 r j) = ix2 (row t r) j := by
  obtain ⟨-, -, -, -, -, -, -, -, -, -, e0, e1⟩ := idx_facts t
  refine funext fun a => Fin.ext ?_
  match a with
  | ⟨0, _⟩ => show win1_5.index t (0 : Fin 2) * 10000 + 1 * r.val = t.val * 10000 + r.val; omega
  | ⟨1, _⟩ => show win1_5.index t (1 : Fin 2) * 2 + 1 * j.val = j.val; omega

/-- What point `t` writes back is block `t` of the layer of the arrays the region finds. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x2) hz, View.ld_unit_zero (S := S1x2) hz]
  funext y
  obtain ⟨r, j, rfl⟩ : ∃ (r : Fin 10000) (j : Fin 2), y = ix2 r j := ⟨y 0, y 1, eq_ix2 y⟩
  refine (Cert.KernelIdeal.Body.pay1_apply (iblk1 V c 0 t) (iblk1 V c 1 t) (iblk1 V c 2 t) (iblk1 V c 4 t) (iblk1 V c 3 t) r j).trans ?_
  rw [View.read_apply, emb5]
  refine Eq.trans ?_ (Cert.Sage.layer2_apply (V c main_v40) (V c main_v28) (V c main_v41) (V c main_v43) (V c main_v42) (row t r) j).symm
  simp only [rd0 V c t r, rd1 V c t r, rd2 V c t, rd3 V c t, rd4 V c t]

/-- An index of the array is in point `t`'s block iff each coordinate is in the block's range on its axis. -/
theorem mem_blk (t : Fin cfg1.N) (i : S100000x2.Idx) :
    i ∈ ((cfg1.win 5).blk t).view.set ↔ ∀ a : Fin 2, win1_5.index t a * S10000x2.size a ≤ (i a).val ∧ (i a).val < win1_5.index t a * S10000x2.size a + S10000x2.size a := by
  show i ∈ ((View.whole main_v44).slice (win1_5.rect t)).set ↔ _
  rw [View.set_slice_whole, Rect.mem_set_unit]
  exact Iff.rfl

/-- Every entry of the array is in the block of its row's ten-thousand. -/
theorem cover (i : S100000x2.Idx) :
    ∃ t : Fin cfg1.N, (cfg1.win 5).flush t = true ∧ i ∈ ((cfg1.win 5).blk t).view.set := by
  have hi0 : (i 0).val < 100000 := (i 0).isLt
  have hi1 : (i 1).val < 2 := (i 1).isLt
  refine ⟨⟨(i 0).val / 10000, by show (i 0).val / 10000 < 10; omega⟩, flush1_5 _, ?_⟩
  rw [mem_blk]
  obtain ⟨-, -, -, -, -, -, -, -, -, -, e0, e1⟩ := idx_facts ⟨(i 0).val / 10000, by show (i 0).val / 10000 < 10; omega⟩
  have e0' : win1_5.index ⟨(i 0).val / 10000, by show (i 0).val / 10000 < 10; omega⟩ (0 : Fin 2) = (i 0).val / 10000 := e0
  intro a
  match a with
  | ⟨0, _⟩ => show win1_5.index _ (0 : Fin 2) * 10000 ≤ (i 0).val ∧ (i 0).val < win1_5.index _ (0 : Fin 2) * 10000 + 10000; omega
  | ⟨1, _⟩ => show win1_5.index _ (1 : Fin 2) * 2 ≤ (i 1).val ∧ (i 1).val < win1_5.index _ (1 : Fin 2) * 2 + 2; omega

/-- The region's output array after its run is the layer of the arrays it was entered with. -/
theorem value (c : Dev nD) : (dat1 V c).arrAt 5 cfg1.N = G V c :=
  (dat1 V c).arrAt_eq_of_cover 5 (G V c) (fun t _ => flushed_eq V c t) (cover)

end Cert.KernelIdeal.Region1

end
-- ==== Proof.HostValue.lean ====
/-
  The kernel program's result array as a function of its arguments.

  Before the first region the host computes, from the features `x` and the edge list, the mean of the incoming
  source rows as aggregate times reciprocal count, and transposes the weights; the region then leaves the first
  layer of that mean and of `x`. Between the regions the host computes the same mean of the hidden features, and
  the second region leaves the second layer of it and of the hidden features. Multiplying by the reciprocal count
  is dividing by the count (the count is at least 1), and a vector cast to one row is the vector laid along axis 1
  of a one-row matrix, so the result is `Sage.result` of the arguments.
-/
import proofs.«134003_j17532056502368_1_alg».proof.Proof.Region0
import proofs.«134003_j17532056502368_1_alg».proof.Proof.Region1
import Idealize.ShloMosaic.Lib.StableHlo.Run
import Idealize.ShloMosaic.Lib.ValueLayout

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-! ## A vector as one row -/

/-- A vector of `n` entries cast to a one-row matrix is the vector laid along axis 1 of that matrix. -/
theorem row_eq {n : ℕ} {α : Type} (b : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext i
  obtain ⟨u, j, rfl⟩ : ∃ (u : Fin 1) (j : Fin n), i = ix2 u j := ⟨i 0, i 1, eq_ix2 i⟩
  rw [shapeCast_a_1a_apply]
  refine (broadcastInDim_apply ![1] h' b (ix2 u j) (ix1 j) fun a => ?_).symm
  match a with
  | ⟨0, _⟩ =>
    show j.val = if n = 1 then 0 else j.val
    split
    · have := j.isLt; omega
    · rfl

/-! ## What the first region finds -/

set_option maxHeartbeats 4000000 in
theorem V1_v24 (c : Dev nD) : V1 m ρ c main_v24
    = Cert.Sage.meanMul (F := Ideal) (m ((c.tc : Thread nD τ).loc main_arg0)) (m ((c.tc : Thread nD τ).loc main_arg1)) := by
  show StableHlo.after hostOps0 (W0 m ρ c) (Proc.devRef .tc main_v24) = _
  after_results_simp <;> rfl

theorem V1_arg0 (c : Dev nD) : V1 m ρ c main_arg0 = m ((c.tc : Thread nD τ).loc main_arg0) := by
  show StableHlo.after hostOps0 (W0 m ρ c) (Proc.devRef .tc main_arg0) = _
  after_results

theorem V1_v25 (c : Dev nD) : V1 m ρ c main_v25
    = transpose S64x64 [1, 0] (m ((c.tc : Thread nD τ).loc main_arg2)) transposes_S64x64_S64x64_1_0 := by
  show StableHlo.after hostOps0 (W0 m ρ c) (Proc.devRef .tc main_v25) = _
  after_results

theorem V1_v26 (c : Dev nD) : V1 m ρ c main_v26
    = transpose S64x64 [1, 0] (m ((c.tc : Thread nD τ).loc main_arg4)) transposes_S64x64_S64x64_1_0 := by
  show StableHlo.after hostOps0 (W0 m ρ c) (Proc.devRef .tc main_v26) = _
  after_results

theorem V1_v27 (c : Dev nD) : V1 m ρ c main_v27
    = shapeCast S1x64 (m ((c.tc : Thread nD τ).loc main_arg3)) shapeCasts_S64_S1x64 := by
  show StableHlo.after hostOps0 (W0 m ρ c) (Proc.devRef .tc main_v27) = _
  after_results
  rfl

/-- The hidden features: what the first region leaves in its output array. -/
theorem hidden_eq (c : Dev nD) : W2 m ρ c (Proc.devRef .tc main_v28)
    = Cert.Sage.hidden (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) :=
  calc W2 m ρ c (Proc.devRef .tc main_v28)
    _ = (dat0 (V1 m ρ) c).arrAt 5 cfg0.N := W2_arr m ρ c 5
    _ = Cert.Sage.layer1 (F := Ideal) (V1 m ρ c main_v24) (V1 m ρ c main_arg0) (V1 m ρ c main_v25) (V1 m ρ c main_v27) (V1 m ρ c main_v26) :=
        Cert.KernelIdeal.Region0.value (V1 m ρ) c
    _ = _ := by
        rw [V1_v24 m ρ c, V1_arg0 m ρ c, V1_v25 m ρ c, V1_v27 m ρ c, V1_v26 m ρ c, Cert.Sage.meanMul_eq_meanDiv, row_eq _ _ Cert.ReferenceIdeal.Gen.bcast_S64_S1x64_1]
        rfl

/-! ## What the second region finds -/

theorem W2_v1 (c : Dev nD) : W2 m ρ c (Proc.devRef .tc main_v1)
    = shapeCast _ (extractStridedSlice S1x1600000 ![0, 0] (m ((c.tc : Thread nD τ).loc main_arg1)) slices_S2x1600000_S1x1600000_0_0) shapeCasts_S1x1600000_S1600000 :=
  (W2_of_ne m ρ c main_v1 (by decide)).trans (by
    show StableHlo.after hostOps0 (W0 m ρ c) (Proc.devRef .tc main_v1) = _
    after_results
    rfl)

theorem W2_v3 (c : Dev nD) : W2 m ρ c (Proc.devRef .tc main_v3)
    = shapeCast _ (extractStridedSlice S1x1600000 ![1, 0] (m ((c.tc : Thread nD τ).loc main_arg1)) slices_S2x1600000_S1x1600000_1_0) shapeCasts_S1x1600000_S1600000 :=
  (W2_of_ne m ρ c main_v3 (by decide)).trans (by
    show StableHlo.after hostOps0 (W0 m ρ c) (Proc.devRef .tc main_v3) = _
    after_results
    rfl)

/-- The reciprocal of each node's count, as a column. -/
def recipCol (ei : Cert.Sage.Arr Ideal Cert.ReferenceIdeal.S2x1600000 .i32) : Cert.Sage.Arr Ideal Cert.ReferenceIdeal.S100000x1 .f32 :=
  broadcastInDim Cert.ReferenceIdeal.S100000x1 ![0] Cert.ReferenceIdeal.Gen.bcast_S100000_S100000x1_0 (Host.divf Cert.Sage.onesN (Cert.Sage.degMax ei))

set_option maxHeartbeats 4000000 in
theorem W2_v12 (c : Dev nD) : W2 m ρ c (Proc.devRef .tc main_v12) = recipCol (m ((c.tc : Thread nD τ).loc main_arg1)) :=
  (W2_of_ne m ρ c main_v12 (by decide)).trans (by
    show StableHlo.after hostOps0 (W0 m ρ c) (Proc.devRef .tc main_v12) = _
    after_results_simp <;> rfl)

theorem W2_arg5 (c : Dev nD) : W2 m ρ c (Proc.devRef .tc main_arg5) = m ((c.tc : Thread nD τ).loc main_arg5) :=
  (W2_of_ne m ρ c main_arg5 (by decide)).trans (by
    show StableHlo.after hostOps0 (W0 m ρ c) (Proc.devRef .tc main_arg5) = _
    after_results)

theorem W2_arg6 (c : Dev nD) : W2 m ρ c (Proc.devRef .tc main_arg6) = m ((c.tc : Thread nD τ).loc main_arg6) :=
  (W2_of_ne m ρ c main_arg6 (by decide)).trans (by
    show StableHlo.after hostOps0 (W0 m ρ c) (Proc.devRef .tc main_arg6) = _
    after_results)

theorem W2_arg7 (c : Dev nD) : W2 m ρ c (Proc.devRef .tc main_arg7) = m ((c.tc : Thread nD τ).loc main_arg7) :=
  (W2_of_ne m ρ c main_arg7 (by decide)).trans (by
    show StableHlo.after hostOps0 (W0 m ρ c) (Proc.devRef .tc main_arg7) = _
    after_results)

set_option maxHeartbeats 4000000 in
theorem V3_v40 (c : Dev nD) : V3 m ρ c main_v40
    = Cert.Sage.meanMul (F := Ideal) (W2 m ρ c (Proc.devRef .tc main_v28)) (m ((c.tc : Thread nD τ).loc main_arg1)) := by
  show StableHlo.after hostOps1 (W2 m ρ c) (Proc.devRef .tc main_v40) = _
  after_results_simp
  rw [W2_v1 m ρ c, W2_v3 m ρ c, W2_v12 m ρ c]
  rfl

theorem V3_v28 (c : Dev nD) : V3 m ρ c main_v28 = W2 m ρ c (Proc.devRef .tc main_v28) := by
  show StableHlo.after hostOps1 (W2 m ρ c) (Proc.devRef .tc main_v28) = _
  after_results

theorem V3_v41 (c : Dev nD) : V3 m ρ c main_v41
    = transpose S64x2 [1, 0] (m ((c.tc : Thread nD τ).loc main_arg5)) transposes_S2x64_S64x2_1_0 := by
  show StableHlo.after hostOps1 (W2 m ρ c) (Proc.devRef .tc main_v41) = _
  after_results
  rw [W2_arg5 m ρ c]

theorem V3_v42 (c : Dev nD) : V3 m ρ c main_v42
    = transpose S64x2 [1, 0] (m ((c.tc : Thread nD τ).loc main_arg7)) transposes_S2x64_S64x2_1_0 := by
  show StableHlo.after hostOps1 (W2 m ρ c) (Proc.devRef .tc main_v42) = _
  after_results
  rw [W2_arg7 m ρ c]

theorem V3_v43 (c : Dev nD) : V3 m ρ c main_v43
    = shapeCast S1x2 (m ((c.tc : Thread nD τ).loc main_arg6)) shapeCasts_S2_S1x2 := by
  show StableHlo.after hostOps1 (W2 m ρ c) (Proc.devRef .tc main_v43) = _
  after_results
  rw [W2_arg6 m ρ c]
  rfl

/-- The program's result array is the specification's result of the arguments. -/
theorem result_eq (c : Dev nD) : W4 m ρ c (Proc.devRef .tc main_v44)
    = Cert.Sage.result (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) :=
  calc W4 m ρ c (Proc.devRef .tc main_v44)
    _ = (dat1 (V3 m ρ) c).arrAt 5 cfg1.N := W4_arr m ρ c 5
    _ = Cert.Sage.layer2 (F := Ideal) (V3 m ρ c main_v40) (V3 m ρ c main_v28) (V3 m ρ c main_v41) (V3 m ρ c main_v43) (V3 m ρ c main_v42) :=
        Cert.KernelIdeal.Region1.value (V3 m ρ) c
    _ = _ := by
        rw [V3_v40 m ρ c, V3_v28 m ρ c, V3_v41 m ρ c, V3_v43 m ρ c, V3_v42 m ρ c, hidden_eq m ρ c, Cert.Sage.meanMul_eq_meanDiv,
          row_eq _ _ Cert.ReferenceIdeal.Gen.bcast_S2_S1x2_1]
        rfl

end Cert.KernelIdeal.HostValue

end
-- ==== Proof.RefValue.lean ====
/-
  The reference program's result as a function of its arguments: its composed term is, operation for operation,
  the specification's `Sage.result` — the mean as aggregate divided by count, the first layer clamped at 0, the
  second layer — so the two are the same term once the specification's names are opened.
-/
import proofs.«134003_j17532056502368_1_alg».proof.Proof.Gen.ReferenceIdeal.Run
import proofs.«134003_j17532056502368_1_alg».proof.Proof.Spec

noncomputable section

namespace Cert.ReferenceIdeal.RefValue

open Cert.ReferenceIdeal Cert.ReferenceIdeal.Gen Idealize.ShloMosaic Idealize.ShloMosaic.TcCoe Idealize.SL.Sem

theorem result_eq (m : (ℓ : Loc nD τ sig) → Buf (Elt Ideal) ℓ) (c : Dev nD) :
    Cert.ReferenceIdeal.Value.res_main_v58 m c
      = Cert.Sage.result (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  unfold Cert.ReferenceIdeal.Value.res_main_v58
  rfl

end Cert.ReferenceIdeal.RefValue

end
-- ==== Proof.lean ====
/-
  A two-layer graph network with mean aggregation, computed two ways.

  Both programs take node features `x` ([N, 64]), an edge list ([2, E]) and two layers' weights. Each layer
  averages, for every node, the feature rows of the sources of its incoming edges (a gather along the edges and a
  scatter-add onto the targets, divided by the number of incoming edges or by 1 if there is none), and returns
  `mean · Wlᵀ + b + features · Wrᵀ`; the first layer is clamped below at 0, and the second layer is applied to the
  first layer's output.

  The kernel program does the gather, the scatter-add and the count on the host, multiplies the aggregate by the
  count's reciprocal, and computes each layer's affine map in a kernel over ten blocks of 10000 rows, with the
  operands cut to a narrower float format before the products. The reference divides the aggregate by the count
  and uses whole-array products. Over the extended reals a change of float format is the identity, a product into
  a zero accumulator is the plain sum over the 64 features, a row block of a product reads the same entries as
  the whole product does at that row, and `a * (1 / n) = a / n` for every extended real `a` because the count `n`
  is a maximum with 1 and so never 0. The precondition (finite inputs) is not used: none of these laws needs it.

  The three frames are the generated ones (the reference's is its generated run with the result dropped), the
  idealization rewrote nothing, and the two results are both `Sage.result` of the arguments.
-/
import proofs.«134003_j17532056502368_1_alg».proof.Defs
import proofs.«134003_j17532056502368_1_alg».proof.Proof.Gen.Kernel
import proofs.«134003_j17532056502368_1_alg».proof.Proof.Gen.Kernel.Frame
import proofs.«134003_j17532056502368_1_alg».proof.Proof.Gen.KernelIdeal
import proofs.«134003_j17532056502368_1_alg».proof.Proof.Gen.KernelIdeal.Frame
import proofs.«134003_j17532056502368_1_alg».proof.Proof.Gen.ReferenceIdeal
import proofs.«134003_j17532056502368_1_alg».proof.Proof.Gen.ReferenceIdeal.Run
import proofs.«134003_j17532056502368_1_alg».proof.Proof.Gen.Pre_finite_inputs
import proofs.«134003_j17532056502368_1_alg».proof.Proof.KernelRun
import proofs.«134003_j17532056502368_1_alg».proof.Proof.HostValue
import proofs.«134003_j17532056502368_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the specification's result of those
    arguments in their result array, and their arguments unchanged. -/
theorem algebraic : Cert.algebraic_KernelIdeal_ReferenceIdeal := by
  intro m ρ m' ρ' _ hagree
  refine ⟨_, (θ_run Cert.KernelIdeal.defs _ _).mono
    (fun _ h c => ⟨(h c).1.trans (Cert.KernelIdeal.HostValue.result_eq m ρ c), (h c).2⟩) (Cert.KernelIdeal.Result.run m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.RefValue.result_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
